-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608 : Shape := ⟨1, ![8388608]⟩
abbrev S_ : Shape := ⟨0, ![]⟩

class Facts : Prop where
  bcast_S_S8388608 : S_.BroadcastsInDim S8388608 (![] : Fin 0 → Fin S8388608.rank)
  reducesTo_S8388608_S_d0 : S8388608.ReducesTo [0] S_
  h_S_ : 0 < S_.numel

variable [Facts]

def fn {F : FTy → Type} [FloatOps F] (main_arg0 : FVec F S8388608 .f32) (main_arg1 : FVec F S8388608 .f32) : IVec S_ 1 :=
  let main_v0 : FVec F S8388608 .f32 := Host.absf main_arg0
  let main_cst : FVec F S_ .f32 := constant S_ .f32 0x7F800000#32
  let main_v1 : FVec F S8388608 .f32 := broadcastInDim S8388608 ![] bcast_S_S8388608 main_cst
  let main_v2 : IVec S8388608 1 := cmpf .olt main_v0 main_v1
  let main_c : IVec S_ 1 := constantI S_ 1 1#1
  let main_v3 : IVec S_ 1 := (fun x v => Host.reduce IntOp.andi x v reducesTo_S8388608_S_d0 h_S_) main_v2 main_c
  let main_v4 : FVec F S8388608 .f32 := Host.absf main_arg1
  let main_cst_0 : FVec F S_ .f32 := constant S_ .f32 0x7F800000#32
  let main_v5 : FVec F S8388608 .f32 := broadcastInDim S8388608 ![] bcast_S_S8388608 main_cst_0
  let main_v6 : IVec S8388608 1 := cmpf .olt main_v4 main_v5
  let main_c_1 : IVec S_ 1 := constantI S_ 1 1#1
  let main_v7 : IVec S_ 1 := (fun x v => Host.reduce IntOp.andi x v reducesTo_S8388608_S_d0 h_S_) main_v6 main_c_1
  let main_v8 : IVec S_ 1 := andi main_v3 main_v7
  main_v8
-- ==== Kernel.lean ====
abbrev S8388608 : Shape := ⟨1, ![8388608]⟩
abbrev S65536x128 : Shape := ⟨2, ![65536, 128]⟩
abbrev S1x1 : Shape := ⟨2, ![1, 1]⟩
abbrev S4096x128 : Shape := ⟨2, ![4096, 128]⟩
abbrev S4096 : Shape := ⟨1, ![4096]⟩
abbrev S1x4096 : Shape := ⟨2, ![1, 4096]⟩
abbrev S1 : Shape := ⟨1, ![1]⟩
abbrev S_ : Shape := ⟨0, ![]⟩

abbrev nBuf : Space → Nat
  | .hbm => 16
  | .vmem => 6
  | .smem => 0
  | _ => 0

abbrev bufTy : (tb : Table) → Fin (tcTables nBuf tb) → BufTy
  | .hbm, ⟨0, _⟩ => ⟨S8388608, .f32⟩
  | .hbm, ⟨1, _⟩ => ⟨S8388608, .f32⟩
  | .hbm, ⟨2, _⟩ => ⟨S65536x128, .f32⟩
  | .hbm, ⟨3, _⟩ => ⟨S65536x128, .f32⟩
  | .hbm, ⟨4, _⟩ => ⟨S1x1, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S1x1, .f32⟩
  | .local _ .vmem, ⟨5, _⟩ => ⟨S1x1, .f32⟩
  | _, _ => ⟨S8388608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S8388608_S65536x128 : S8388608.ShapeCasts S65536x128
  inb_S1x1_S1x1_0_0 : ∀ a, (![0, 0] : Fin 2 → Nat) a + S1x1.size a ≤ S1x1.size a
  h_S1x1 : 0 < S1x1.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S4096 : S4096x128.Reduces [1] S4096
  shapeCasts_S4096_S1x4096 : S4096.ShapeCasts S1x4096
  reduces_S1x4096_S1 : S1x4096.Reduces [1] S1
  shapeCasts_S1_S1x1 : S1.ShapeCasts S1x1
  inpos_S1x1_p0_0 : ∀ a, (![0, 0] : Fin 2 → Nat) a < S1x1.size a
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S65536x128.size a
  hwx0_0 : ∀ i : grid0.Coords, EltTy.bits .f32 = 32 ∨ (Rect.block (s := S65536x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S65536x128.size a
  hwx0_1 : ∀ i : grid0.Coords, EltTy.bits .f32 = 32 ∨ (Rect.block (s := S65536x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8388608 : Shape := ⟨1, ![8388608]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8388608, .f32⟩
  | .hbm, ⟨1, _⟩ => ⟨S8388608, .f32⟩
  | .hbm, ⟨2, _⟩ => ⟨S8388608, .f32⟩
  | .hbm, ⟨3, _⟩ => ⟨S_, .f32⟩
  | .hbm, ⟨4, _⟩ => ⟨S8388608, .f32⟩
  | .hbm, ⟨5, _⟩ => ⟨S8388608, .i1⟩
  | .hbm, ⟨6, _⟩ => ⟨S8388608, .f32⟩
  | .hbm, ⟨7, _⟩ => ⟨S_, .f32⟩
  | .hbm, ⟨8, _⟩ => ⟨S8388608, .f32⟩
  | .hbm, ⟨9, _⟩ => ⟨S8388608, .f32⟩
  | .hbm, ⟨10, _⟩ => ⟨S8388608, .f32⟩
  | .hbm, ⟨11, _⟩ => ⟨S_, .f32⟩
  | .hbm, ⟨12, _⟩ => ⟨S8388608, .f32⟩
  | .hbm, ⟨13, _⟩ => ⟨S8388608, .f32⟩
  | .hbm, ⟨14, _⟩ => ⟨S8388608, .f32⟩
  | .hbm, ⟨15, _⟩ => ⟨S8388608, .f32⟩
  | .hbm, ⟨16, _⟩ => ⟨S_, .f32⟩
  | .hbm, ⟨17, _⟩ => ⟨S8388608, .f32⟩
  | .hbm, ⟨18, _⟩ => ⟨S8388608, .f32⟩
  | .hbm, ⟨19, _⟩ => ⟨S_, .f32⟩
  | .hbm, ⟨20, _⟩ => ⟨S_, .f32⟩
  | .hbm, ⟨21, _⟩ => ⟨S8388608, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S8388608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  reducesTo_S8388608_S_d0 : S8388608.ReducesTo [0] S_
  h_S_ : 0 < S_.numel

variable [Facts₀]

class Facts : Prop extends Facts₀ where

variable [Facts]
-- ==== Proof.Pieces.lean ====
/-
  What one grid point leaves in the two one-element accumulators, read off the pieces the body's stores leave.

  The body keeps two running totals, each in a 1×1 buffer that stays in place from one grid point to the next. At the
  first point it stores zero into both, then adds the point's block total to what it reads back; at every later point
  it adds the block total to what the point before left. In terms of the body's pure payloads: the score accumulator
  ends at `k0_pay6 x y acc` (the old contents plus the block's score total) and the squared-difference accumulator at
  `k0_pay1 (k0_pay5 x y) acc` (the old contents plus the block's total of squares), with `acc` the zero block
  (`k0_pay2`, `k0_pay3`) at the first point.
-/
import proofs.«128086_j20177756356930_1_alg».proof.Defs
import proofs.«128086_j20177756356930_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- A later point: the score accumulator holding `acc` ends at `acc` plus the block's score total. Its one store
    covers the buffer, and the three loads it depends on read whole buffers. -/
theorem score_next (c : Dev nD) (i : grid0.Coords) (a1 : Memref sig .tc .vmem S4096x128 .f32) (h1 : a1.IsWhole)
    (a2 : Memref sig .tc .vmem S4096x128 .f32) (h2 : a2.IsWhole) (a3 : Memref sig .tc .vmem S1x1 .f32) (h3 : a3.IsWhole)
    (a4 : Memref sig .tc .vmem S1x1 .f32) (h4 : a4.IsWhole) (hc : ¬cond0_0 i) (x0 x1 : Vec F S4096x128 .f32) (xo2 xo3 : Vec F S1x1 .f32) :
    out0_B_2 c i a1 h1 a2 h2 a3 h3 a4 h4 hc x0 x1 xo2 xo3 = k0_pay6 x0 x1 xo2 := by
  unfold out0_B_2
  rw [View.read_writes_eq_canon _ _ _ (cover0_B_2 c i a1 h1 a2 h2 a3 h3 a4 h4 hc x0 x1 xo2 xo3)]
  unfold kernelRun0_B
  dsimp only
  sl_unfold_words
  rw [View.canon_unit_zero hz]
  simp only [View.readAt_eq_ld, h1.read_unread, h2.read_unread, h3.read_unread, View.ld_unit_zero (S := S4096x128) hz,
    View.ld_unit_zero (S := S1x1) hz]

/-- A later point: the squared-difference accumulator holding `acc` ends at `acc` plus the block's total of squares. -/
theorem sq_next (c : Dev nD) (i : grid0.Coords) (a1 : Memref sig .tc .vmem S4096x128 .f32) (h1 : a1.IsWhole)
    (a2 : Memref sig .tc .vmem S4096x128 .f32) (h2 : a2.IsWhole) (a3 : Memref sig .tc .vmem S1x1 .f32) (h3 : a3.IsWhole)
    (a4 : Memref sig .tc .vmem S1x1 .f32) (h4 : a4.IsWhole) (hc : ¬cond0_0 i) (x0 x1 : Vec F S4096x128 .f32) (xo2 xo3 : Vec F S1x1 .f32) :
    out0_B_3 c i a1 h1 a2 h2 a3 h3 a4 h4 hc x0 x1 xo2 xo3 = k0_pay1 (k0_pay5 x0 x1) xo3 := by
  unfold out0_B_3
  rw [View.read_writes_eq_canon _ _ _ (cover0_B_3 c i a1 h1 a2 h2 a3 h3 a4 h4 hc x0 x1 xo2 xo3)]
  unfold kernelRun0_B
  dsimp only
  sl_unfold_words
  rw [View.canon_unit_zero hz]
  simp only [View.readAt_eq_ld, h1.read_unread, h2.read_unread, h4.read_unread, View.ld_unit_zero (S := S4096x128) hz,
    View.ld_unit_zero (S := S1x1) hz]

/-- The first point: the zero block is stored, read back, and the block's score total added to it. -/
theorem score_first (c : Dev nD) (i : grid0.Coords) (a1 : Memref sig .tc .vmem S4096x128 .f32) (h1 : a1.IsWhole)
    (a2 : Memref sig .tc .vmem S4096x128 .f32) (h2 : a2.IsWhole) (a3 : Memref sig .tc .vmem S1x1 .f32) (h3 : a3.IsWhole)
    (a4 : Memref sig .tc .vmem S1x1 .f32) (h4 : a4.IsWhole) (hc : cond0_0 i) (x0 x1 : Vec F S4096x128 .f32) :
    out0_A_2 c i a1 h1 a2 h2 a3 h3 a4 h4 hc x0 x1 = k0_pay6 x0 x1 k0_pay2 := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S4096x128) hz]

/-- The first point: the zero block is stored, read back, and the block's total of squares added to it. -/
theorem sq_first (c : Dev nD) (i : grid0.Coords) (a1 : Memref sig .tc .vmem S4096x128 .f32) (h1 : a1.IsWhole)
    (a2 : Memref sig .tc .vmem S4096x128 .f32) (h2 : a2.IsWhole) (a3 : Memref sig .tc .vmem S1x1 .f32) (h3 : a3.IsWhole)
    (a4 : Memref sig .tc .vmem S1x1 .f32) (h4 : a4.IsWhole) (hc : cond0_0 i) (x0 x1 : Vec F S4096x128 .f32) :
    out0_A_3 c i a1 h1 a2 h2 a3 h3 a4 h4 hc x0 x1 = k0_pay1 (k0_pay5 x0 x1) k0_pay3 := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S4096x128) hz]

end Cert.KernelIdeal.Acc

end
-- ==== Proof.KernelRun.lean ====
/-
  The kernel's run, read as values at any float instance.

  After grid point `n` the two 1×1 accumulators hold a pair `totals n`: at point 0 the block totals of block 0 added to the
  zero block, and at point `n + 1` the block totals of block `n + 1` added to `totals n` (`accum_eq`, by induction on the
  point). Neither accumulator is written back before the last point, 15, whose write-back covers the whole 1×1 result
  array; so the two result arrays end at `totals 15` (`score_final`, `sq_final`). The operations after the region then
  view each 1×1 array as a scalar and form `½ · s + ½ · √(q / 8388608)` (`run`).
-/
import proofs.«128086_j20177756356930_1_alg».proof.Proof.Pieces
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ) (ρ : Dev nD → PrngReg)

/-- Block `t` of the first and of the second input, as the region finds them. -/
abbrev xblk (c : Dev nD) (t : Fin cfg0.N) : Vec F S4096x128 .f32 := iblk m c 0 t
abbrev yblk (c : Dev nD) (t : Fin cfg0.N) : Vec F S4096x128 .f32 := iblk m c 1 t

/-- The pair (score total, total of squares) after grid point `n`. -/
def totals (c : Dev nD) : (n : ℕ) → n < cfg0.N → Vec F S1x1 .f32 × Vec F S1x1 .f32
  | 0, h => (k0_pay6 (xblk m c ⟨0, h⟩) (yblk m c ⟨0, h⟩) k0_pay2,
      k0_pay1 (k0_pay5 (xblk m c ⟨0, h⟩) (yblk m c ⟨0, h⟩)) k0_pay3)
  | n + 1, h => (k0_pay6 (xblk m c ⟨n + 1, h⟩) (yblk m c ⟨n + 1, h⟩) (totals c n (Nat.lt_of_succ_lt h)).1,
      k0_pay1 (k0_pay5 (xblk m c ⟨n + 1, h⟩) (yblk m c ⟨n + 1, h⟩)) (totals c n (Nat.lt_of_succ_lt h)).2)

/-- What the accumulators hold after point `n` is `totals n`. -/
theorem accum_eq (c : Dev nD) : ∀ (n : ℕ) (h : n < cfg0.N), outsAt0 m c n h = totals m c n h
  | 0, h => by
    rw [outsAt0_A m c ⟨0, h⟩ rfl, score_first, sq_first]
    rfl
  | n + 1, h => by
    have hN : cfg0.N = 16 := N_0
    have hB : ¬(⟨n + 1, h⟩ : Fin cfg0.N).val % 16 = 0 := by dsimp only; omega
    rw [outsAt0_B m c ⟨n + 1, h⟩ hB, score_next, sq_next]
    show (k0_pay6 _ _ (outsAt0 m c n _).1, k0_pay1 (k0_pay5 _ _) (outsAt0 m c n _).2) = _
    rw [accum_eq c n]
    rfl

theorem last_lt : 15 < cfg0.N := by rw [show cfg0.N = 16 from N_0]; decide

/-- The two result arrays' final contents: the totals after the last point. -/
abbrev scoreArr (c : Dev nD) : Buf (Elt F) ((c : Thread nD τ).loc main_v2_0) := (totals m c 15 last_lt).1
abbrev sqArr (c : Dev nD) : Buf (Elt F) ((c : Thread nD τ).loc main_v2_1) := (totals m c 15 last_lt).2

/-- The only write-back of the score accumulator, at point 15, writes `totals 15`: its block is the whole 1×1 array. -/
theorem score_flushed (c : Dev nD) (t : Fin cfg0.N) (hf : (cfg0.win 2).flush t = true) :
    (dats m 0 c).flushed 2 t = ((cfg0.win 2).blk t).view.read (Elt F) (scoreArr m c) := by
  have hN : cfg0.N = 16 := N_0
  have h15 : t.val = 15 := by have := (flush0_2 t).mp hf; have := t.isLt; omega
  obtain rfl : t = t0_15 := Fin.ext h15
  show (cfg0.win 2).cut (grid0.coords t0_15) ((dats m 0 c).after 2 t0_15) = _
  rw [after0_2, accum_eq]
  have hoff : (fun a => win0_2.index t0_15 a * main_v2_0.ty.shape.size a) = fun _ => 0 :=
    funext fun a => by fin_cases a <;> decide
  exact (Memref.read_access_unit_zero (Elt F) main_v2_0 hoff (fun a => by rw [congrFun hoff a]; simp) (scoreArr m c)).symm

theorem sq_flushed (c : Dev nD) (t : Fin cfg0.N) (hf : (cfg0.win 3).flush t = true) :
    (dats m 0 c).flushed 3 t = ((cfg0.win 3).blk t).view.read (Elt F) (sqArr m c) := by
  have hN : cfg0.N = 16 := N_0
  have h15 : t.val = 15 := by have := (flush0_3 t).mp hf; have := t.isLt; omega
  obtain rfl : t = t0_15 := Fin.ext h15
  show (cfg0.win 3).cut (grid0.coords t0_15) ((dats m 0 c).after 3 t0_15) = _
  rw [after0_3, accum_eq]
  have hoff : (fun a => win0_3.index t0_15 a * main_v2_1.ty.shape.size a) = fun _ => 0 :=
    funext fun a => by fin_cases a <;> decide
  exact (Memref.read_access_unit_zero (Elt F) main_v2_1 hoff (fun a => by rw [congrFun hoff a]; simp) (sqArr m c)).symm

/-- Point 15's block covers the one index of the score array, so the array ends at `totals 15`. -/
theorem score_final (c : Dev nD) : (dats m 0 c).arrAt 2 cfg0.N = scoreArr m c :=
  (dats m 0 c).arrAt_eq_of_cover 2 (scoreArr m c) (score_flushed m c) fun i =>
    ⟨t0_15, (flush0_2 t0_15).mpr rfl, by
      show i ∈ ((View.whole main_v2_0).slice (win0_2.rect t0_15)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index t0_15 0 * win0_2.size 0 ≤ (i 0 : Nat) ∧ (i 0 : Nat) < win0_2.index t0_15 0 * win0_2.size 0 + win0_2.xsize (grid0.coords t0_15) 0
        rw [show win0_2.index t0_15 0 * win0_2.size 0 = 0 from by decide +kernel, show win0_2.xsize (grid0.coords t0_15) 0 = 1 from by decide +kernel]; omega
      | ⟨1, _⟩ =>
        show win0_2.index t0_15 1 * win0_2.size 1 ≤ (i 1 : Nat) ∧ (i 1 : Nat) < win0_2.index t0_15 1 * win0_2.size 1 + win0_2.xsize (grid0.coords t0_15) 1
        rw [show win0_2.index t0_15 1 * win0_2.size 1 = 0 from by decide +kernel, show win0_2.xsize (grid0.coords t0_15) 1 = 1 from by decide +kernel]; omega⟩

theorem sq_final (c : Dev nD) : (dats m 0 c).arrAt 3 cfg0.N = sqArr m c :=
  (dats m 0 c).arrAt_eq_of_cover 3 (sqArr m c) (sq_flushed m c) fun i =>
    ⟨t0_15, (flush0_3 t0_15).mpr rfl, by
      show i ∈ ((View.whole main_v2_1).slice (win0_3.rect t0_15)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index t0_15 0 * win0_3.size 0 ≤ (i 0 : Nat) ∧ (i 0 : Nat) < win0_3.index t0_15 0 * win0_3.size 0 + win0_3.xsize (grid0.coords t0_15) 0
        rw [show win0_3.index t0_15 0 * win0_3.size 0 = 0 from by decide +kernel, show win0_3.xsize (grid0.coords t0_15) 0 = 1 from by decide +kernel]; omega
      | ⟨1, _⟩ =>
        show win0_3.index t0_15 1 * win0_3.size 1 ≤ (i 1 : Nat) ∧ (i 1 : Nat) < win0_3.index t0_15 1 * win0_3.size 1 + win0_3.xsize (grid0.coords t0_15) 1
        rw [show win0_3.index t0_15 1 * win0_3.size 1 = 0 from by decide +kernel, show win0_3.xsize (grid0.coords t0_15) 1 = 1 from by decide +kernel]; omega⟩

/-- The last step after the region: each 1×1 total viewed as a scalar, then `½ · s + ½ · √(q / 8388608)`. -/
def finish (s : FVec F S1x1 .f32) (q : FVec F S1x1 .f32) : FVec F S_ .f32 :=
  addf (mulf (constant S_ .f32 0x3F000000#32) (shapeCast S_ s shapeCasts_S1x1_S_))
    (mulf (constant S_ .f32 0x3F000000#32)
      (Host.sqrt (Host.divf (shapeCast S_ q shapeCasts_S1x1_S_) (constant S_ .f32 0x4B000000#32))))

/-- What the result buffer holds after the operations that follow the region. -/
theorem tail_eq (c : Dev nD) :
    Pipeline.afterTail₀ cfgs (dats m) 0 (V0 m) [hostOps1] c main_v9 = finish (scoreArr m c) (sqArr m c) := by
  unfold Pipeline.afterTail₀
  show StableHlo.after hostOps1 _ (Proc.devRef .tc main_v9) = _
  after_results
  have es : Pipeline.withArrays (cfgs 0).spec c (V0 m c) (fun w => (dats m 0 c).arrAt w (cfgs 0).N)
      (Proc.devRef .tc main_v2_0) = scoreArr m c :=
    (Pipeline.withArrays_arr spec0 launch0.win.arr_inj c _ _ 2).trans (score_final m c)
  have eq : Pipeline.withArrays (cfgs 0).spec c (V0 m c) (fun w => (dats m 0 c).arrAt w (cfgs 0).N)
      (Proc.devRef .tc main_v2_1) = sqArr m c :=
    (Pipeline.withArrays_arr spec0 launch0.win.arr_inj c _ _ 3).trans (sq_final m c)
  rw [es, eq]
  rfl

/-- The run, read: the result at the last step of the two totals, the arguments unchanged. -/
theorem run : θ_run defs (onTc (τ := τ) (main (F := F))) ⟨m, fun _ => 0, ρ⟩ fun r => ∀ c : Dev nD,
      r.2.mem ((c.tc : Thread nD τ).loc main_v9) = finish (scoreArr m c) (sqArr m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v9 (Pipeline.mem_restRefs_of main_v9 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Acc

end
-- ==== Proof.Spec.lean ====
/-
  The mathematics of the loss, with no program in sight.

  For two flat arrays `x y` of 8388608 extended reals put `d i = x i - y i`. The loss is
      ½ · Σᵢ score (d i)  +  ½ · √( (Σᵢ d i · d i) / 8388608 ),
  where `score d = (if d < 0 then exp (-d / 13) else exp (d / 10)) - 1`.
  One side adds the terms in one sweep over the flat array; the other views the array as 16 blocks of
  4096 rows of 128 lanes, adds the lanes of a row, then the rows of a block, then the blocks. Addition of
  extended reals is commutative and associative, so the two agree whatever the values are: the position of
  lane `l` of row `r` of block `t` in the flat array is `(4096 t + r) · 128 + l`, and these positions run
  over every flat index exactly once (`flatEquiv`, `sum_flat`).
-/
import Idealize.ShloMosaic.PureOps.Ideal.Laws
import Idealize.ShloMosaic.Lib.ValueIdx
import Idealize.ShloMosaic.Lib.Pipeline.Value
import Idealize.ShloMosaic.Lib.ValueLayout

noncomputable section

open Idealize.ShloMosaic Idealize.ShloMosaic.ValueIdx
open scoped BigOperators

namespace Cert.RulSpec

/-- The flat array, a block of 4096 rows of 128 lanes, a block's row sums (as a vector and as one row), and the
    one-element shapes a block's total passes through. -/
abbrev SN : Shape := ⟨1, ![8388608]⟩
abbrev SB : Shape := ⟨2, ![4096, 128]⟩
abbrev SR : Shape := ⟨1, ![4096]⟩
abbrev SR1 : Shape := ⟨2, ![1, 4096]⟩
abbrev S1 : Shape := ⟨1, ![1]⟩
abbrev S11 : Shape := ⟨2, ![1, 1]⟩
abbrev S0 : Shape := ⟨0, ![]⟩

/-! ## One element -/

/-- The asymmetric exponential score of a pair, minus one: `exp (-d/13) - 1` below zero, `exp (d/10) - 1` from zero up,
    at `d = a - b`. The three constants are the binary values of 13, 10 and 1; the comparison is against zero. -/
def scoreOf (a b : Ideal .f32) : Ideal .f32 :=
  Scalar.select (FloatOps.cmpf .olt (a - b) (Ideal.ofBits .f32 0x00000000#32))
      (FloatOps.exp (F := Ideal) (φ := .f32) (Ideal.div (-(a - b)) (Ideal.ofBits .f32 0x41500000#32)))
      (FloatOps.exp (F := Ideal) (φ := .f32) (Ideal.div (a - b) (Ideal.ofBits .f32 0x41200000#32)))
    - Ideal.ofBits .f32 0x3F800000#32

/-- The squared difference of a pair. -/
def sqOf (a b : Ideal .f32) : Ideal .f32 := (a - b) * (a - b)

/-- Negation written as a difference from the zero word: `0 - d = -d` on every extended real. -/
theorem zero_word_sub (d : EReal) : Ideal.ofBits .f32 0x00000000#32 - d = -d := by
  rw [Ideal.ofBits_zero_f32, zero_sub]

/-! ## The last step: two totals to the loss -/

/-- `½ · s + ½ · √(q / 8388608)` of the two totals, each held as a rank-0 array (`0x3F000000` is ½ and `0x4B000000`
    is 8388608, both exact). -/
def combine (s q : FVec Ideal S0 .f32) : FVec Ideal S0 .f32 :=
  addf (mulf (constant S0 .f32 0x3F000000#32) s)
    (mulf (constant S0 .f32 0x3F000000#32) (Host.sqrt (Host.divf q (constant S0 .f32 0x4B000000#32))))

/-! ## Flat positions of a blocked array -/

/-- Lane `l` of row `r` of block `t` sits at flat position `(4096 t + r) · 128 + l`. -/
def flat (t : Fin 16) (r : Fin 4096) (l : Fin 128) : SN.Idx :=
  ix1 ⟨(t.val * 4096 + r.val) * 128 + l.val, by have := t.isLt; have := r.isLt; have := l.isLt; omega⟩

theorem flat_val (t : Fin 16) (r : Fin 4096) (l : Fin 128) :
    ((flat t r l) 0).val = (t.val * 4096 + r.val) * 128 + l.val := rfl

/-- Every flat position is the position of exactly one (block, row, lane): quotient and remainders by 128 and 4096. -/
def flatEquiv : Fin 16 × Fin 4096 × Fin 128 ≃ SN.Idx where
  toFun p := flat p.1 p.2.1 p.2.2
  invFun i :=
    have h : (i 0).val < 8388608 := (i 0).isLt
    (⟨(i 0).val / 524288, by omega⟩, ⟨(i 0).val / 128 % 4096, by omega⟩, ⟨(i 0).val % 128, by omega⟩)
  left_inv p := by
    obtain ⟨t, r, l⟩ := p
    have ht := t.isLt; have hr := r.isLt; have hl := l.isLt
    refine Prod.ext (Fin.ext ?_) (Prod.ext (Fin.ext ?_) (Fin.ext ?_))
    · show ((t.val * 4096 + r.val) * 128 + l.val) / 524288 = t.val; omega
    · show ((t.val * 4096 + r.val) * 128 + l.val) / 128 % 4096 = r.val; omega
    · show ((t.val * 4096 + r.val) * 128 + l.val) % 128 = l.val; omega
  right_inv i := by
    have h : (i 0).val < 8388608 := (i 0).isLt
    funext a
    match a with
    | ⟨0, _⟩ =>
      exact Fin.ext (show ((i 0).val / 524288 * 4096 + (i 0).val / 128 % 4096) * 128 + (i 0).val % 128 = (i 0).val by omega)

/-- So a sum over blocks, rows and lanes of a function of the flat position is the sum over the flat array. -/
theorem sum_flat (f : SN.Idx → EReal) :
    ∑ t : Fin 16, ∑ r : Fin 4096, ∑ l : Fin 128, f (flat t r l) = ∑ i : SN.Idx, f i := by
  rw [← Equiv.sum_comp flatEquiv f, Fintype.sum_prod_type]
  refine Finset.sum_congr rfl fun t _ => ?_
  rw [Fintype.sum_prod_type]
  rfl

/-- The same with the blocks counted by a natural number below 16. -/
theorem sum_range_flat (f : SN.Idx → EReal) :
    ∑ s ∈ Finset.range 16, (if h : s < 16 then ∑ r : Fin 4096, ∑ l : Fin 128, f (flat ⟨s, h⟩ r l) else 0)
      = ∑ i : SN.Idx, f i := by
  rw [← sum_flat f,
    ← Fin.sum_univ_eq_sum_range (fun s => if h : s < 16 then ∑ r : Fin 4096, ∑ l : Fin 128, f (flat ⟨s, h⟩ r l) else 0) 16]
  exact Finset.sum_congr rfl fun t _ => by rw [dif_pos t.isLt]

/-! ## A block's total: lanes first, then rows -/

/-- Summing a block along its lanes, viewing the 4096 row sums as one row, summing that row, and taking the one element
    left, is the double sum over rows and lanes (each reduction starts from the zero word, the neutral element). -/
theorem lanes_then_rows (v : FVec Ideal SB .f32) (h1 : SB.Reduces [1] SR) (hc1 : SR.ShapeCasts SR1)
    (h2 : SR1.Reduces [1] S1) (hc2 : S1.ShapeCasts S11) (hp : ∀ a, (![0, 0] : Fin 2 → Nat) a < S11.size a)
    (hφ : FKind.Formats .f32) (hacc : (0x00000000#32 : BitVec 32) = FKind.add.neutral .f32 hφ)
    (hφ' : FKind.Formats .f32) (hacc' : (0x00000000#32 : BitVec 32) = FKind.add.neutral .f32 hφ') :
    extractAt ![0, 0] (shapeCast S11 (multiReduction .add [1] S1
        (shapeCast SR1 (multiReduction .add [1] SR v 0x00000000#32 h1 hφ hacc) hc1)
        0x00000000#32 h2 hφ' hacc') hc2) hp
      = ∑ r : Fin 4096, ∑ l : Fin 128, v (ix2 r l) := by
  have e1 : ∀ r : Fin 4096, multiReduction .add [1] SR v 0x00000000#32 h1 hφ hacc (ix1 r)
      = ∑ l : Fin 128, v (ix2 r l) := by
    intro r
    refine (Ideal.multiReduction_add_single v 0x00000000#32 h1 hφ hacc (ix1 r)).trans ?_
    refine Finset.sum_congr rfl fun l _ => congrArg v ?_
    funext a
    match a with
    | ⟨0, _⟩ => exact Fin.ext rfl
    | ⟨1, _⟩ => exact Fin.ext rfl
  unfold extractAt
  have e0 : (fun a => (⟨(![0, 0] : Fin 2 → Nat) a, hp a⟩ : Fin (S11.size a))) = ix2 (0 : Fin 1) (0 : Fin 1) := by
    funext a
    match a with
    | ⟨0, _⟩ => exact Fin.ext rfl
    | ⟨1, _⟩ => exact Fin.ext rfl
  rw [e0, shapeCast_a_1a_apply _ hc2 0 0]
  refine (Ideal.multiReduction_add_single _ 0x00000000#32 h2 hφ' hacc' (ix1 (0 : Fin 1))).trans ?_
  have e3 : ∀ r : Fin 4096, h2.lift (ix1 (0 : Fin 1)) r = ix2 (0 : Fin 1) r := by
    intro r
    funext a
    match a with
    | ⟨0, _⟩ => exact Fin.ext rfl
    | ⟨1, _⟩ => exact Fin.ext rfl
  have e4 : ∀ r : Fin 4096, shapeCast SR1 (multiReduction .add [1] SR v 0x00000000#32 h1 hφ hacc) hc1
      (h2.lift (ix1 (0 : Fin 1)) r) = ∑ l : Fin 128, v (ix2 r l) := fun r =>
    (congrArg _ (e3 r)).trans ((shapeCast_a_1a_apply _ hc1 0 r).trans (e1 r))
  exact Finset.sum_congr rfl fun r _ => e4 r

end Cert.RulSpec

end
-- ==== Proof.KernelSums.lean ====
/-
  The kernel's two totals over the extended reals: the sums over the flat arrays.

  A block total is the double sum, over the block's 4096 rows and 128 lanes, of the pair's score (or squared
  difference): the difference block is the elementwise difference, the lanes of a row are added, then the rows
  (`score_pay`, `sq_pay`). Block `t` of the array viewed as 65536 rows of 128 reads the flat array at position
  `(4096 t + r) · 128 + l` (`xblk_apply`, `yblk_apply`). So after point `n` the accumulators hold the sum of the block
  totals of blocks `0 … n` (`totals_eq`), and after the last point the sum over the whole flat array, because every flat
  position is in exactly one block (`Cert.RulSpec.sum_range_flat`). No property of the values is used: sums of extended
  reals may be regrouped freely.
-/
import proofs.«128086_j20177756356930_1_alg».proof.Proof.KernelRun
import proofs.«128086_j20177756356930_1_alg».proof.Proof.Spec
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.Acc

open Cert.KernelIdeal Cert.KernelIdeal.Gen Cert.RulSpec

/-! ## The body's arithmetic, at one block -/

/-- The difference block is the elementwise difference. -/
theorem diff_pay (a b : Vec Ideal S4096x128 .f32) : k0_pay4 (F := Ideal) a b = fun i => a i - b i := by
  unfold k0_pay4
  dsimp only
  rw [shapeCast_self, shapeCast_self]
  rfl

/-- The score accumulator's new contents: the old ones plus the block's score total. -/
theorem score_pay (a b : Vec Ideal S4096x128 .f32) (acc : Vec Ideal S1x1 .f32) :
    k0_pay6 (F := Ideal) a b acc
      = fun j => acc j + ∑ r : Fin 4096, ∑ l : Fin 128, scoreOf (a (ix2 r l)) (b (ix2 r l)) := by
  funext j
  unfold k0_pay6
  dsimp only
  rw [diff_pay]
  show shapeCast S1x1 acc shapeCasts_S1x1_S1x1 j + _ = _
  rw [shapeCast_self]
  refine congrArg (acc j + ·) ?_
  refine (lanes_then_rows _ _ _ _ _ _ _ _ _ _).trans ?_
  refine Finset.sum_congr rfl fun r _ => Finset.sum_congr rfl fun l _ => ?_
  unfold scoreOf
  rw [← zero_word_sub]
  rfl

/-- The block's total of squared differences. -/
theorem sq_pay (a b : Vec Ideal S4096x128 .f32) :
    k0_pay5 (F := Ideal) a b = ∑ r : Fin 4096, ∑ l : Fin 128, sqOf (a (ix2 r l)) (b (ix2 r l)) := by
  unfold k0_pay5
  dsimp only
  rw [diff_pay]
  refine (lanes_then_rows _ _ _ _ _ _ _ _ _ _).trans ?_
  rfl

/-- Adding a scalar into a 1×1 accumulator. -/
theorem add_pay (v : Ideal .f32) (acc : Vec Ideal S1x1 .f32) : k0_pay1 (F := Ideal) v acc = fun j => acc j + v := by
  unfold k0_pay1
  dsimp only
  rw [shapeCast_self]
  rfl

/-- The two blocks the first point stores are zero. -/
theorem zero_pay2 : k0_pay2 (F := Ideal) = fun _ => 0 := funext fun _ => Ideal.ofBits_zero_f32
theorem zero_pay3 : k0_pay3 (F := Ideal) = fun _ => 0 := funext fun _ => Ideal.ofBits_zero_f32

/-! ## A block read off the flat array -/

variable (m : (ℓ : Loc nD τ sig) → Buf (Elt Ideal) ℓ)

/-- The two flat argument arrays. -/
abbrev xarr (c : Dev nD) : Vec Ideal S8388608 .f32 := m ((c : Thread nD τ).loc main_arg0)
abbrev yarr (c : Dev nD) : Vec Ideal S8388608 .f32 := m ((c : Thread nD τ).loc main_arg1)

theorem grid_lt (t : Fin cfg0.N) : t.val < 16 := lt_of_lt_of_eq t.isLt N_0

/-- Row `r`, lane `l` of block `t` of the first input is the flat array at `(4096 t + r) · 128 + l`. -/
theorem xblk_apply (c : Dev nD) (t : Fin cfg0.N) (r : Fin 4096) (l : Fin 128) :
    xblk m c t (ix2 r l) = xarr m c (flat ⟨t.val, grid_lt t⟩ r l) := by
  have hv : (V m c main_v0 : S65536x128.Idx → Ideal .f32)
      = shapeCast S65536x128 (xarr m c) shapeCasts_S8388608_S65536x128 := by
    show StableHlo.after hostOps0 (fun b => m (c, b)) (Proc.devRef .tc main_v0) = _
    after_results
    rfl
  have hi : ∀ t : Fin cfg0.N, win0_0.index t 0 = t.val ∧ win0_0.index t 1 = 0 :=
    (by decide +kernel : ∀ t : Fin grid0.N, win0_0.index t 0 = t.val ∧ win0_0.index t 1 = 0)
  show ((cfg0.win 0).blk t).view.read (Elt Ideal) (V m c main_v0) (ix2 r l) = _
  rw [View.read_apply, hv]
  refine shapeCast_apply _ _ _ _ ?_
  rw [Shape.rowMajor_val_one, Shape.rowMajor_val_two]
  show (t.val * 4096 + r.val) * 128 + l.val
    = (win0_0.index t 0 * 4096 + 1 * r.val) * 128 + (win0_0.index t 1 * 128 + 1 * l.val)
  rw [(hi t).1, (hi t).2]
  omega

/-- The same for the second input. -/
theorem yblk_apply (c : Dev nD) (t : Fin cfg0.N) (r : Fin 4096) (l : Fin 128) :
    yblk m c t (ix2 r l) = yarr m c (flat ⟨t.val, grid_lt t⟩ r l) := by
  have hv : (V m c main_v1 : S65536x128.Idx → Ideal .f32)
      = shapeCast S65536x128 (yarr m c) shapeCasts_S8388608_S65536x128 := by
    show StableHlo.after hostOps0 (fun b => m (c, b)) (Proc.devRef .tc main_v1) = _
    after_results
    rfl
  have hi : ∀ t : Fin cfg0.N, win0_1.index t 0 = t.val ∧ win0_1.index t 1 = 0 :=
    (by decide +kernel : ∀ t : Fin grid0.N, win0_1.index t 0 = t.val ∧ win0_1.index t 1 = 0)
  show ((cfg0.win 1).blk t).view.read (Elt Ideal) (V m c main_v1) (ix2 r l) = _
  rw [View.read_apply, hv]
  refine shapeCast_apply _ _ _ _ ?_
  rw [Shape.rowMajor_val_one, Shape.rowMajor_val_two]
  show (t.val * 4096 + r.val) * 128 + l.val
    = (win0_1.index t 0 * 4096 + 1 * r.val) * 128 + (win0_1.index t 1 * 128 + 1 * l.val)
  rw [(hi t).1, (hi t).2]
  omega

/-! ## The totals -/

/-- Block `s`'s score total and total of squares, off the flat arrays (zero from 16 on: there is no such block). -/
def blockScore (c : Dev nD) (s : ℕ) : EReal :=
  if h : s < 16 then ∑ r : Fin 4096, ∑ l : Fin 128, scoreOf (xarr m c (flat ⟨s, h⟩ r l)) (yarr m c (flat ⟨s, h⟩ r l)) else 0
def blockSq (c : Dev nD) (s : ℕ) : EReal :=
  if h : s < 16 then ∑ r : Fin 4096, ∑ l : Fin 128, sqOf (xarr m c (flat ⟨s, h⟩ r l)) (yarr m c (flat ⟨s, h⟩ r l)) else 0

theorem block_score (c : Dev nD) (t : Fin cfg0.N) :
    ∑ r : Fin 4096, ∑ l : Fin 128, scoreOf (xblk m c t (ix2 r l)) (yblk m c t (ix2 r l)) = blockScore m c t.val := by
  unfold blockScore
  rw [dif_pos (grid_lt t)]
  exact Finset.sum_congr rfl fun r _ => Finset.sum_congr rfl fun l _ => by rw [xblk_apply, yblk_apply]

theorem block_sq (c : Dev nD) (t : Fin cfg0.N) :
    ∑ r : Fin 4096, ∑ l : Fin 128, sqOf (xblk m c t (ix2 r l)) (yblk m c t (ix2 r l)) = blockSq m c t.val := by
  unfold blockSq
  rw [dif_pos (grid_lt t)]
  exact Finset.sum_congr rfl fun r _ => Finset.sum_congr rfl fun l _ => by rw [xblk_apply, yblk_apply]

/-- After point `n` the accumulators hold the block totals of blocks `0 … n`, added up. -/
theorem totals_eq (c : Dev nD) : ∀ (n : ℕ) (h : n < cfg0.N), totals m c n h
      = (fun _ => ∑ s ∈ Finset.range (n + 1), blockScore m c s, fun _ => ∑ s ∈ Finset.range (n + 1), blockSq m c s)
  | 0, h => by
    show (k0_pay6 (xblk m c ⟨0, h⟩) (yblk m c ⟨0, h⟩) (k0_pay2 (F := Ideal)),
      k0_pay1 (k0_pay5 (xblk m c ⟨0, h⟩) (yblk m c ⟨0, h⟩)) (k0_pay3 (F := Ideal))) = _
    rw [score_pay, sq_pay, add_pay, zero_pay2, zero_pay3, block_score, block_sq]
    simp only [Finset.sum_range_one, zero_add]
  | n + 1, h => by
    show (k0_pay6 (xblk m c ⟨n + 1, h⟩) (yblk m c ⟨n + 1, h⟩) (totals m c n (Nat.lt_of_succ_lt h)).1,
      k0_pay1 (k0_pay5 (xblk m c ⟨n + 1, h⟩) (yblk m c ⟨n + 1, h⟩)) (totals m c n (Nat.lt_of_succ_lt h)).2) = _
    rw [totals_eq c n, score_pay, sq_pay, add_pay, block_score, block_sq]
    simp only [Finset.sum_range_succ _ (n + 1)]

/-- The score array ends at the sum, over the whole flat array, of each pair's score. -/
theorem score_total (c : Dev nD) :
    scoreArr m c = fun _ => ∑ i : S8388608.Idx, scoreOf (xarr m c i) (yarr m c i) := by
  show (totals m c 15 last_lt).1 = _
  rw [totals_eq]
  funext _
  exact sum_range_flat fun i => scoreOf (xarr m c i) (yarr m c i)

/-- The squared-difference array ends at the sum, over the whole flat array, of each pair's squared difference. -/
theorem sq_total (c : Dev nD) :
    sqArr m c = fun _ => ∑ i : S8388608.Idx, sqOf (xarr m c i) (yarr m c i) := by
  show (totals m c 15 last_lt).2 = _
  rw [totals_eq]
  funext _
  exact sum_range_flat fun i => sqOf (xarr m c i) (yarr m c i)

/-- So the kernel's result is the loss of the two flat arrays. -/
theorem result_eq (c : Dev nD) : finish (scoreArr m c) (sqArr m c)
    = combine (fun _ => ∑ i : S8388608.Idx, scoreOf (xarr m c i) (yarr m c i))
        (fun _ => ∑ i : S8388608.Idx, sqOf (xarr m c i) (yarr m c i)) := by
  rw [score_total, sq_total]
  rfl

end Cert.KernelIdeal.Acc

end
-- ==== Proof.RefValue.lean ====
/-
  The reference's result as the loss of the flat arrays.

  The reference subtracts the two flat arrays, scores every difference, sums the scores from zero in one sweep, sums the
  squared differences likewise, and forms `½ · s + ½ · √(q / 8388608)`. Element by element its score is `scoreOf`: its
  negation of the difference is the same extended real as the difference taken from zero, and its exponential and
  quotient are the same functions on the extended reals as a kernel's.
-/
import proofs.«128086_j20177756356930_1_alg».proof.Defs
import proofs.«128086_j20177756356930_1_alg».proof.Proof.Gen.ReferenceIdeal.Run
import proofs.«128086_j20177756356930_1_alg».proof.Proof.Gen.ReferenceIdeal.Read
import proofs.«128086_j20177756356930_1_alg».proof.Proof.Spec

noncomputable section

open Idealize.ShloMosaic Idealize.ShloMosaic.TcCoe Idealize.SL.Sem Idealize.ShloMosaic.ValueIdx
open scoped BigOperators

namespace Cert.ReferenceIdeal.Loss

open Cert.ReferenceIdeal Cert.ReferenceIdeal.Gen Cert.ReferenceIdeal.Read Cert.RulSpec

/-- The reference's score total: zero plus the sum over the flat array of each pair's score. -/
theorem score_sum (x y : (⟨S8388608, .f32⟩ : BufTy).Contents (Elt Ideal)) :
    val_main_v13 (F := Ideal) x y = fun _ => ∑ i : S8388608.Idx, scoreOf (x i) (y i) := by
  funext j
  rw [val_main_v13_apply]
  show Ideal.ofBits .f32 0x00000000#32 + _ = _
  rw [Ideal.ofBits_zero_f32, zero_add]
  exact Finset.sum_congr rfl fun i _ => rfl

/-- The reference's total of squares: zero plus the sum over the flat array of each pair's squared difference. -/
theorem sq_sum (x y : (⟨S8388608, .f32⟩ : BufTy).Contents (Elt Ideal)) :
    val_main_v15 (F := Ideal) x y = fun _ => ∑ i : S8388608.Idx, sqOf (x i) (y i) := by
  funext j
  rw [val_main_v15_apply]
  show Ideal.ofBits .f32 0x00000000#32 + _ = _
  rw [Ideal.ofBits_zero_f32, zero_add]
  exact Finset.sum_congr rfl fun i _ => rfl

/-- The reference's result is the loss of the two flat arrays. -/
theorem result_eq (x y : (⟨S8388608, .f32⟩ : BufTy).Contents (Elt Ideal)) :
    val_main_v20 (F := Ideal) x y
      = combine (fun _ => ∑ i : S8388608.Idx, scoreOf (x i) (y i)) (fun _ => ∑ i : S8388608.Idx, sqOf (x i) (y i)) := by
  rw [← score_sum, ← sq_sum]
  rfl

end Cert.ReferenceIdeal.Loss

end
-- ==== Proof.lean ====
/-
  Both programs compute, from two flat arrays `x y` of 8388608 numbers, the loss
      ½ · Σᵢ score (xᵢ - yᵢ)  +  ½ · √( (Σᵢ (xᵢ - yᵢ)²) / 8388608 ),
  with `score d = (if d < 0 then exp (-d / 13) else exp (d / 10)) - 1`.

  The kernel views the arrays as 16 blocks of 4096 rows of 128 lanes and keeps two running totals across the 16 grid
  points, zeroed at the first; per block it adds the lanes of each row, then the rows. The reference sums each flat array
  of terms in one sweep. Over the extended reals a sum may be regrouped freely, and the blocks' positions
  `(4096 t + r) · 128 + l` run over every flat position once, so the two pairs of totals are equal; the last step
  (halves, quotient, square root) is the same expression on both sides. The kernel writes `-d` as `0 - d`, the same
  extended real. Nothing about the values is needed, so the precondition is never opened.

  The three frames: the kernel's two programs by their frame certificates; the reference's by its run with the result
  dropped. The idealization rewrote nothing, so there is nothing to preserve.
-/
import proofs.«128086_j20177756356930_1_alg».proof.Defs
import proofs.«128086_j20177756356930_1_alg».proof.Proof.Gen.Kernel
import proofs.«128086_j20177756356930_1_alg».proof.Proof.Gen.Kernel.Skeleton
import proofs.«128086_j20177756356930_1_alg».proof.Proof.Gen.Kernel.Launch
import proofs.«128086_j20177756356930_1_alg».proof.Proof.Gen.Kernel.Points
import proofs.«128086_j20177756356930_1_alg».proof.Proof.Gen.Kernel.Frame
import proofs.«128086_j20177756356930_1_alg».proof.Proof.Gen.KernelIdeal
import proofs.«128086_j20177756356930_1_alg».proof.Proof.Gen.KernelIdeal.Skeleton
import proofs.«128086_j20177756356930_1_alg».proof.Proof.Gen.KernelIdeal.Launch
import proofs.«128086_j20177756356930_1_alg».proof.Proof.Gen.KernelIdeal.Points
import proofs.«128086_j20177756356930_1_alg».proof.Proof.Gen.KernelIdeal.Frame
import proofs.«128086_j20177756356930_1_alg».proof.Proof.Gen.ReferenceIdeal
import proofs.«128086_j20177756356930_1_alg».proof.Proof.Gen.ReferenceIdeal.Run
import proofs.«128086_j20177756356930_1_alg».proof.Proof.Gen.ReferenceIdeal.Read
import proofs.«128086_j20177756356930_1_alg».proof.Proof.Gen.Pre_finite_inputs
import proofs.«128086_j20177756356930_1_alg».proof.Proof.KernelSums
import proofs.«128086_j20177756356930_1_alg».proof.Proof.RefValue
import Idealize.ShloMosaic.Adequacy
import Idealize.ShloMosaic.Init

noncomputable section

namespace Cert.Proof

open Idealize.ShloMosaic Idealize.ShloMosaic.TcCoe Idealize.SL.Sem
open scoped BigOperators

theorem frame_kernel [Cert.Kernel.Facts] [Cert.Pre_finite_inputs.Facts] : Cert.frame_Kernel :=
  fun m ρ _ => Cert.Kernel.Gen.frame m ρ

theorem frame_kernel_ideal [Cert.KernelIdeal.Facts] [Cert.Pre_finite_inputs.Facts] : Cert.frame_KernelIdeal :=
  fun m ρ _ => Cert.KernelIdeal.Gen.frame m ρ

theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both runs end at the loss of the (agreeing) flat arrays. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.RulSpec.combine
      (fun _ => ∑ i : Cert.KernelIdeal.S8388608.Idx,
        Cert.RulSpec.scoreOf (Cert.KernelIdeal.Acc.xarr m c i) (Cert.KernelIdeal.Acc.yarr m c i))
      (fun _ => ∑ i : Cert.KernelIdeal.S8388608.Idx,
        Cert.RulSpec.sqOf (Cert.KernelIdeal.Acc.xarr m c i) (Cert.KernelIdeal.Acc.yarr m c i)), ?_, ?_⟩
  · exact (θ_run Cert.KernelIdeal.defs _ _).mono
      (fun _ h c => ⟨(h c).1.trans (Cert.KernelIdeal.Acc.result_eq m c), (h c).2⟩)
      (Cert.KernelIdeal.Acc.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v20_eq, Cert.ReferenceIdeal.Loss.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
